-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S16x16 .f32) (main_arg5 : FVec F S16 .f32) (main_arg6 : FVec F S16x16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) (main_arg6 : FVec F S16x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S8x16 : Shape := ⟨2, ![8, 16]⟩
abbrev S400x10000 : Shape := ⟨2, ![400, 10000]⟩
abbrev S400x16 : Shape := ⟨2, ![400, 16]⟩
abbrev S400 : Shape := ⟨1, ![400]⟩
abbrev S400x1 : Shape := ⟨2, ![400, 1]⟩

abbrev nBuf : Space → Nat
  | .hbm => 18
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S10000x16, .f32⟩
  | .hbm, ⟨9, _⟩ => ⟨S1x16, .f32⟩
  | .hbm, ⟨10, _⟩ => ⟨S8x16, .f32⟩
  | .hbm, ⟨11, _⟩ => ⟨S1x16, .f32⟩
  | .hbm, ⟨12, _⟩ => ⟨S8x16, .f32⟩
  | .hbm, ⟨13, _⟩ => ⟨S1x16, .f32⟩
  | .hbm, ⟨14, _⟩ => ⟨S8x16, .f32⟩
  | .hbm, ⟨15, _⟩ => ⟨S10000x16, .f32⟩
  | .hbm, ⟨16, _⟩ => ⟨S10000x16, .f32⟩
  | .hbm, ⟨17, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S8x16, .f32⟩
  | .local _ .vmem, ⟨7, _⟩ => ⟨S16x16, .f32⟩
  | .local _ .vmem, ⟨8, _⟩ => ⟨S400x16, .f32⟩
  | .local _ .vmem, ⟨9, _⟩ => ⟨S400x16, .f32⟩
  | .local _ .vmem, ⟨10, _⟩ => ⟨S400x10000, .f32⟩
  | .local _ .vmem, ⟨11, _⟩ => ⟨S400x10000, .f32⟩
  | .local _ .vmem, ⟨12, _⟩ => ⟨S10000x16, .f32⟩
  | .local _ .vmem, ⟨13, _⟩ => ⟨S8x16, .f32⟩
  | .local _ .vmem, ⟨14, _⟩ => ⟨S16x16, .f32⟩
  | .local _ .vmem, ⟨15, _⟩ => ⟨S400x16, .f32⟩
  | .local _ .vmem, ⟨16, _⟩ => ⟨S400x16, .f32⟩
  | .local _ .vmem, ⟨17, _⟩ => ⟨S400x10000, .f32⟩
  | .local _ .vmem, ⟨18, _⟩ => ⟨S400x10000, .f32⟩
  | .local _ .vmem, ⟨19, _⟩ => ⟨S10000x16, .f32⟩
  | .local _ .vmem, ⟨20, _⟩ => ⟨S8x16, .f32⟩
  | .local _ .vmem, ⟨21, _⟩ => ⟨S400x16, .f32⟩
  | .local _ .vmem, ⟨22, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  inb_S400x10000_S400x10000_0_0 : ∀ a, (![0, 0] : Fin 2 → Nat) a + S400x10000.size a ≤ S400x10000.size a
  h_S400x10000 : 0 < S400x10000.numel
  shapeCasts_S10000x16_S10000x16 : S10000x16.ShapeCasts S10000x16
  inb_S8x16_S1x16_0_0 : ∀ a, (![0, 0] : Fin 2 → Nat) a + S1x16.size a ≤ S8x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  inb_S400x16_S400x16_0_0 : ∀ a, (![0, 0] : Fin 2 → Nat) a + S400x16.size a ≤ S400x16.size a
  h_S400x16 : 0 < S400x16.numel
  reduces_S400x16_S400 : S400x16.Reduces [1] S400
  shapeCasts_S400_S400x1 : S400.ShapeCasts S400x1
  broadcasts_S400x1_S400x16 : S400x1.Broadcasts S400x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x16.size a ≤ S8x16.size a
  hwx2_2 : ∀ i : grid2.Coords, EltTy.bits .f32 = 32 ∨ (Rect.block (s := S8x16) S8x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x16.size a ≤ S8x16.size a
  hwx3_2 : ∀ i : grid3.Coords, EltTy.bits .f32 = 32 ∨ (Rect.block (s := S8x16) S8x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S8x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S8x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S10000x16, .f32⟩
  | .hbm, ⟨9, _⟩ => ⟨S10000x16, .f32⟩
  | .hbm, ⟨10, _⟩ => ⟨S1x16, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S1x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Spec.lean ====
/-
  The network as ONE function of the eight argument arrays, spelt with the reference's own operations.

  A three-layer graph convolution over a dense adjacency `adj` of 10000 nodes: the input features are projected to 16
  columns (`project`), and each layer multiplies the adjacency by the previous layer's support matrix and adds a bias row
  (`aggregate`); the first two layers then clamp at zero and multiply by the next layer's 16 × 16 weights (`hidden`), and
  the last one takes a logarithmic softmax along each row (`logSoftmax`): `y - max y - log Σ exp (y - max y)`, the row's
  maximum taken from `-∞`. `gcn` composes them.
-/
import proofs.«144065_g45140106281004_cont_8to1c4_826_3_alg».proof.ReferenceIdeal
import Idealize.ShloMosaic.PureOps.Ideal

noncomputable section

namespace Cert.Spec

open Idealize.ShloMosaic Cert.ReferenceIdeal

variable [Cert.ReferenceIdeal.Facts]
open Cert.ReferenceIdeal.Facts₀

/-- A bias vector repeated over the 10000 rows. -/
def biasRows (b : FVec Ideal S16 .f32) : FVec Ideal S10000x16 .f32 :=
  broadcastInDim S10000x16 ![0, 1] bcast_S1x16_S10000x16_0_1 (broadcastInDim S1x16 ![1] bcast_S16_S1x16_1 b)

/-- The zero the hidden layers clamp at, as a matrix. -/
def zeroRows : FVec Ideal S10000x16 .f32 :=
  broadcastInDim S10000x16 ![] bcast_S_S10000x16 (constant S_ .f32 0x00000000#32)

/-- The input projection `x · w`. -/
def project (x : FVec Ideal S10000x128 .f32) (w : FVec Ideal S128x16 .f32) : FVec Ideal S10000x16 .f32 :=
  Host.dotGeneral dot_S10000x128_S128x16_S10000x16_1_0_0_1_n_n none x w

/-- One aggregation: `adj · s + b`. -/
def aggregate (adj : FVec Ideal S10000x10000 .f32) (s : FVec Ideal S10000x16 .f32) (b : FVec Ideal S16 .f32) :
    FVec Ideal S10000x16 .f32 :=
  addf (Host.dotGeneral dot_S10000x10000_S10000x16_S10000x16_1_0_0_1_n_n none adj s) (biasRows b)

/-- A hidden layer followed by the next layer's weights: `max (adj · s + b) 0 · w`. -/
def hidden (adj : FVec Ideal S10000x10000 .f32) (s : FVec Ideal S10000x16 .f32) (b : FVec Ideal S16 .f32)
    (w : FVec Ideal S16x16 .f32) : FVec Ideal S10000x16 .f32 :=
  Host.dotGeneral dot_S10000x16_S16x16_S10000x16_1_0_0_1_n_n none (maximumf (aggregate adj s b) zeroRows) w

/-- Each row's maximum (from `-∞`), repeated along the row. -/
def rowMax (y : FVec Ideal S10000x16 .f32) : FVec Ideal S10000x16 .f32 :=
  broadcastInDim S10000x16 ![0, 1] bcast_S10000x1_S10000x16_0_1 (broadcastInDim S10000x1 ![0] bcast_S10000_S10000x1_0
    (maximumf (broadcastInDim S10000 ![] bcast_S_S10000 (constant S_ .f32 0xFF800000#32))
      (Host.reduce FloatOps.maximumf y (constant S_ .f32 0xFF800000#32) reducesTo_S10000x16_S10000_d1 h_S_)))

/-- The logarithmic softmax along each row. -/
def logSoftmax (y : FVec Ideal S10000x16 .f32) : FVec Ideal S10000x16 .f32 :=
  subf (subf y (rowMax y)) (broadcastInDim S10000x16 ![0, 1] bcast_S10000x1_S10000x16_0_1
    (Host.log (broadcastInDim S10000x1 ![0] bcast_S10000_S10000x1_0
      (Host.reduceAdd (Host.exp (subf y (rowMax y))) (constant S_ .f32 0x00000000#32) reducesTo_S10000x16_S10000_d1 h_S_))))

/-- The whole network. -/
def gcn (x : FVec Ideal S10000x128 .f32) (adj : FVec Ideal S10000x10000 .f32) (w1 : FVec Ideal S128x16 .f32)
    (b1 : FVec Ideal S16 .f32) (w2 : FVec Ideal S16x16 .f32) (b2 : FVec Ideal S16 .f32) (w3 : FVec Ideal S16x16 .f32)
    (b3 : FVec Ideal S16 .f32) : FVec Ideal S10000x16 .f32 :=
  logSoftmax (aggregate adj (hidden adj (hidden adj (project x w1) b1 w2) b2 w3) b3)

end Cert.Spec

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Dots.lean ====
/-
  The six matrix products of the two programs are plain products.

  Each `dot` record of the kernel (the whole 10000 × 128 projection, a 400-row tile of the adjacency against the 10000 × 16
  support matrix, a 400-row tile against the 16 × 16 weights) and of the reference (the same three over all 10000 rows)
  contracts the left operand's column with the right operand's row and keeps the left row and the right column.
-/
import proofs.«144065_g45140106281004_cont_8to1c4_826_3_alg».proof.KernelIdeal
import proofs.«144065_g45140106281004_cont_8to1c4_826_3_alg».proof.ReferenceIdeal
import proofs.«144065_g45140106281004_cont_8to1c4_826_3_alg».proof.Proof.LibAffineRows

noncomputable section

namespace Cert.Dots

open Idealize.ShloMosaic Cert.Lib

/-- The record `d`, of the dimension numbers `[1] × [0]` without batch axes, is a plain product. -/
local macro "plain_dot " d:term : term => `(
  { rank := rfl
    size := rfl
    l0 := fun i q => by
      unfold DotDims.lhsIdx
      rw [dif_neg (show ¬(0 : Fin 2) ∈ ($d).lhsBatch from List.not_mem_nil), dif_pos (show (0 : Fin 2) ∈ ($d).lhsNonContracting from List.mem_singleton.mpr rfl)]
      rfl
    l1 := fun i q => ($d).lhsIdx_val_of_single rfl i q
    r0 := fun i q => ($d).rhsIdx_val_of_single rfl i q
    r1 := fun i q => by
      unfold DotDims.rhsIdx
      rw [dif_neg (show ¬(1 : Fin 2) ∈ ($d).rhsBatch from List.not_mem_nil), dif_pos (show (1 : Fin 2) ∈ ($d).rhsNonContracting from List.mem_singleton.mpr rfl)]
      rfl })

section Kernel
variable [Cert.KernelIdeal.Facts]

theorem kernel_project : PlainDot (R := 10000) (K := 128) (M := 16) Cert.KernelIdeal.dot_S10000x128_S128x16_S10000x16_1_0_0_1_n_n :=
  plain_dot Cert.KernelIdeal.dot_S10000x128_S128x16_S10000x16_1_0_0_1_n_n

theorem kernel_aggregate : PlainDot (R := 400) (K := 10000) (M := 16) Cert.KernelIdeal.dot_S400x10000_S10000x16_S400x16_1_0_0_1_n_n :=
  plain_dot Cert.KernelIdeal.dot_S400x10000_S10000x16_S400x16_1_0_0_1_n_n

theorem kernel_weights : PlainDot (R := 400) (K := 16) (M := 16) Cert.KernelIdeal.dot_S400x16_S16x16_S400x16_1_0_0_1_n_n :=
  plain_dot Cert.KernelIdeal.dot_S400x16_S16x16_S400x16_1_0_0_1_n_n

end Kernel

section Reference
variable [Cert.ReferenceIdeal.Facts]

theorem ref_project : PlainDot (R := 10000) (K := 128) (M := 16) Cert.ReferenceIdeal.dot_S10000x128_S128x16_S10000x16_1_0_0_1_n_n :=
  plain_dot Cert.ReferenceIdeal.dot_S10000x128_S128x16_S10000x16_1_0_0_1_n_n

theorem ref_aggregate : PlainDot (R := 10000) (K := 10000) (M := 16) Cert.ReferenceIdeal.dot_S10000x10000_S10000x16_S10000x16_1_0_0_1_n_n :=
  plain_dot Cert.ReferenceIdeal.dot_S10000x10000_S10000x16_S10000x16_1_0_0_1_n_n

theorem ref_weights : PlainDot (R := 10000) (K := 16) (M := 16) Cert.ReferenceIdeal.dot_S10000x16_S16x16_S10000x16_1_0_0_1_n_n :=
  plain_dot Cert.ReferenceIdeal.dot_S10000x16_S16x16_S10000x16_1_0_0_1_n_n

end Reference

end Cert.Dots

end
-- ==== Proof.LibRealRows.lean ====
/-
  Matrices of real numbers inside the extended reals, read row by row.

  An array whose entries are all real numbers (none of them an infinity) stays such an array under a product of two
  matrices (a finite sum of products of reals), under a sum, under a maximum and under a broadcast of a bias row:
  `IsReal` and its closure lemmas. A matrix unit's product of two f32 operands accumulated into zeros is, at `(r, c)`,
  the textbook sum over the contracted index (`matmul_f32_zero_apply`), so a row tile's `xb · s + bias` is, row by row,
  the whole `X · s + bias` (`affine_rows_f32`). Nothing here depends on the sizes.
-/
import Idealize.ShloMosaic.Lib.ValueIdx
import Idealize.ShloMosaic.Lib.ValueLayout
import Idealize.ShloMosaic.Lib.Pipeline.Value
import Idealize.ShloMosaic.PureOps.Ideal.Laws
import proofs.«144065_g45140106281004_cont_8to1c4_826_3_alg».proof.Proof.LibAffineRows

noncomputable section

namespace Cert.Lib

open Idealize.ShloMosaic Idealize.ShloMosaic.ValueIdx

/-- Every entry of the array is a real number. -/
def IsReal {s : Shape} (v : s.Idx → EReal) : Prop := ∀ i, ∃ a : ℝ, v i = (a : EReal)

/-- A finite sum of real numbers is a real number. -/
theorem sum_isReal {ι : Type*} (t : Finset ι) (f : ι → EReal) (h : ∀ k ∈ t, ∃ a : ℝ, f k = (a : EReal)) :
    ∃ a : ℝ, ∑ k ∈ t, f k = (a : EReal) := by
  classical
  induction t using Finset.induction_on with
  | empty => exact ⟨0, by simp⟩
  | insert k t hk ih =>
    obtain ⟨a, ha⟩ := h k (Finset.mem_insert_self k t)
    obtain ⟨b, hb⟩ := ih fun j hj => h j (Finset.mem_insert_of_mem hj)
    exact ⟨a + b, by rw [Finset.sum_insert hk, ha, hb, EReal.coe_add]⟩

variable {R K M : ℕ}

/-- A matrix unit's product of two f32 operands into zeros, at `(r, c)`: the textbook sum. -/
theorem matmul_f32_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    matmul d none x w (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The product of two matrices of reals is a matrix of reals. -/
theorem isReal_dotGeneral {d : DotDims ⟨2, ![R, K]⟩ ⟨2, ![K, M]⟩ ⟨2, ![R, M]⟩} (h : PlainDot d)
    {x : FVec Ideal ⟨2, ![R, K]⟩ .f32} {w : FVec Ideal ⟨2, ![K, M]⟩ .f32} (hx : IsReal x) (hw : IsReal w) :
    IsReal (Host.dotGeneral d none x w) := by
  intro i
  obtain ⟨r, c, rfl⟩ : ∃ (r : Fin R) (c : Fin M), i = ix2 r c := ⟨i 0, i 1, eq_ix2 i⟩
  rw [dotGeneral_apply h]
  refine sum_isReal _ _ fun k _ => ?_
  obtain ⟨a, ha⟩ := hx (ix2 r k)
  obtain ⟨b, hb⟩ := hw (ix2 k c)
  exact ⟨a * b, by rw [ha, hb, EReal.coe_mul]⟩

/-- The entrywise sum of two arrays of reals is an array of reals. -/
theorem isReal_addf {s : Shape} {x y : FVec Ideal s .f32} (hx : IsReal x) (hy : IsReal y) : IsReal (addf x y) := by
  intro i
  obtain ⟨a, ha⟩ := hx i
  obtain ⟨b, hb⟩ := hy i
  exact ⟨a + b, by rw [addf_apply, ha, hb, EReal.coe_add]⟩

/-- The entrywise maximum of two arrays of reals is an array of reals. -/
theorem isReal_maximumf {s : Shape} {x y : FVec Ideal s .f32} (hx : IsReal x) (hy : IsReal y) : IsReal (maximumf x y) := by
  intro i
  obtain ⟨a, ha⟩ := hx i
  obtain ⟨b, hb⟩ := hy i
  exact ⟨max a b, by rw [maximumf_apply, ha, hb]; exact (EReal.coe_strictMono.monotone.map_max).symm⟩

/-- A bias vector of reals broadcast over the rows is a matrix of reals. -/
theorem isReal_bias_rows {N : ℕ} {b : FVec Ideal ⟨1, ![M]⟩ .f32} (hb : IsReal b)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) :
    IsReal (broadcastInDim ⟨2, ![N, M]⟩ ![0, 1] h2 (broadcastInDim ⟨2, ![1, M]⟩ ![1] h1 b)) := by
  intro i
  obtain ⟨n, q, rfl⟩ : ∃ (n : Fin N) (q : Fin M), i = ix2 n q := ⟨i 0, i 1, eq_ix2 i⟩
  rw [bias_rows_apply]
  exact hb _

/-- ROW BY ROW, f32 operands: where row `r` of the tile `xb` is row `n r` of `X` and the bias block's row is the bias
    vector, the tile's `xb · s + bias` at `(r, q)` is the whole `X · s + bias` at `(n r, q)`. -/
theorem affine_rows_f32 {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (s : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (hss : (⟨2, ![K, M]⟩ : Shape).ShapeCasts ⟨2, ![K, M]⟩)
    (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none xb (shapeCast ⟨2, ![K, M]⟩ s hss) (constant ⟨2, ![R, M]⟩ .f32 0x00000000#32))
        (broadcastTo ⟨2, ![R, M]⟩ (shapeCast ⟨2, ![1, M]⟩ b2 hsc) hbc) (ix2 r q)
      = addf (Host.dotGeneral dW none X s) (broadcastInDim ⟨2, ![N, M]⟩ ![0, 1] h2 (broadcastInDim ⟨2, ![1, M]⟩ ![1] h1 b)) (ix2 (n r) q) := by
  rw [addf_apply, addf_apply, matmul_f32_zero_apply hB, dotGeneral_apply hW, bias_rows_apply, broadcastTo_1b_ab_apply,
    shapeCast_self, shapeCast_self, hb]
  exact congrArg (· + b (ix1 q)) (Finset.sum_congr rfl fun k _ => by rw [hx])

end Cert.Lib

end
-- ==== Proof.LayerRows.lean ====
/-
  A row tile of a hidden layer is the same rows of the whole layer.

  On a tile `xb` holding rows `n r` of the adjacency, the kernel body computes `max (xb · s + bias) 0 · w`, the bias read
  from row 0 of its `[1, 16]` block; the plain program computes `max (adj · s + bias) 0 · w` over all rows. At the ideal
  values both matrix products are the textbook sums, so entry `(r, q)` of the tile's result is entry `(n r, q)` of the
  whole result: first for the aggregation `xb · s + bias` (`aggregate_rows`), then through the clamp and the weights
  (`hidden_rows`). The second hidden layer's body is the same function (`hidden_rows'`).
-/
import proofs.«144065_g45140106281004_cont_8to1c4_826_3_alg».proof.Proof.Gen.KernelIdeal.Skeleton
import proofs.«144065_g45140106281004_cont_8to1c4_826_3_alg».proof.Proof.Gen.ReferenceIdeal
import proofs.«144065_g45140106281004_cont_8to1c4_826_3_alg».proof.Proof.Spec
import proofs.«144065_g45140106281004_cont_8to1c4_826_3_alg».proof.Proof.Dots
import proofs.«144065_g45140106281004_cont_8to1c4_826_3_alg».proof.Proof.LibRealRows

noncomputable section

namespace Cert.Rows

open Idealize.ShloMosaic Idealize.ShloMosaic.ValueIdx Cert.Lib

/-- The zero matrix the reference clamps at reads the f32 zero everywhere. -/
theorem zeroRows_apply (i : Cert.ReferenceIdeal.S10000x16.Idx) : Cert.Spec.zeroRows i = Ideal.ofBits .f32 0x00000000#32 := by
  unfold Cert.Spec.zeroRows
  exact broadcastInDim_apply _ _ _ i ValueIdx.ix0 (fun a => a.elim0)

/-- The aggregation on a row tile: entry `(r, q)` of `xb · s + bias` is entry `(n r, q)` of `adj · s + bias`. -/
theorem aggregate_rows (xb : FVec Ideal Cert.KernelIdeal.S400x10000 .f32) (adj : FVec Ideal Cert.ReferenceIdeal.S10000x10000 .f32)
    (s : FVec Ideal Cert.KernelIdeal.S10000x16 .f32) (bblk : FVec Ideal Cert.KernelIdeal.S1x16 .f32)
    (b : FVec Ideal Cert.ReferenceIdeal.S16 .f32) (n : Fin 400 → Fin 10000)
    (hx : ∀ r k, xb (ix2 r k) = adj (ix2 (n r) k)) (hb : ∀ q : Fin 16, bblk (ix2 (0 : Fin 1) q) = b (ix1 q))
    (r : Fin 400) (q : Fin 16) :
    addf (matmul Cert.KernelIdeal.dot_S400x10000_S10000x16_S400x16_1_0_0_1_n_n none xb
          (shapeCast Cert.KernelIdeal.S10000x16 s Cert.KernelIdeal.Gen.shapeCasts_S10000x16_S10000x16)
          (constant Cert.KernelIdeal.S400x16 .f32 0x00000000#32))
        (broadcastTo Cert.KernelIdeal.S400x16 (shapeCast Cert.KernelIdeal.S1x16 bblk Cert.KernelIdeal.Gen.shapeCasts_S1x16_S1x16)
          Cert.KernelIdeal.Gen.broadcasts_S1x16_S400x16) (ix2 r q)
      = Cert.Spec.aggregate adj s b (ix2 (n r) q) := by
  unfold Cert.Spec.aggregate Cert.Spec.biasRows
  exact affine_rows_f32 (N := 10000) Cert.Dots.kernel_aggregate Cert.Dots.ref_aggregate xb adj s bblk b n hx hb _ _ _ _ _ r q

/-- A hidden layer on a row tile: entry `(r, q)` of `max (xb · s + bias) 0 · w` is entry `(n r, q)` of the whole layer. -/
theorem hidden_rows (xb : FVec Ideal Cert.KernelIdeal.S400x10000 .f32) (adj : FVec Ideal Cert.ReferenceIdeal.S10000x10000 .f32)
    (s : FVec Ideal Cert.KernelIdeal.S10000x16 .f32) (bblk : FVec Ideal Cert.KernelIdeal.S1x16 .f32)
    (b : FVec Ideal Cert.ReferenceIdeal.S16 .f32) (w : FVec Ideal Cert.KernelIdeal.S16x16 .f32) (n : Fin 400 → Fin 10000)
    (hx : ∀ r k, xb (ix2 r k) = adj (ix2 (n r) k)) (hb : ∀ q : Fin 16, bblk (ix2 (0 : Fin 1) q) = b (ix1 q))
    (r : Fin 400) (q : Fin 16) :
    Cert.KernelIdeal.Gen.k1_pay1 (F := Ideal) xb s bblk w (ix2 r q) = Cert.Spec.hidden adj s b w (ix2 (n r) q) := by
  unfold Cert.Spec.hidden
  show matmul Cert.KernelIdeal.dot_S400x16_S16x16_S400x16_1_0_0_1_n_n none
      (maximumf (addf (matmul Cert.KernelIdeal.dot_S400x10000_S10000x16_S400x16_1_0_0_1_n_n none xb
            (shapeCast Cert.KernelIdeal.S10000x16 s Cert.KernelIdeal.Gen.shapeCasts_S10000x16_S10000x16)
            (constant Cert.KernelIdeal.S400x16 .f32 0x00000000#32))
          (broadcastTo Cert.KernelIdeal.S400x16 (shapeCast Cert.KernelIdeal.S1x16 bblk Cert.KernelIdeal.Gen.shapeCasts_S1x16_S1x16)
            Cert.KernelIdeal.Gen.broadcasts_S1x16_S400x16))
        (broadcast Cert.KernelIdeal.S400x16 (Scalar.ofBits (F := Ideal) .f32 0x00000000#32)))
      w (constant Cert.KernelIdeal.S400x16 .f32 0x00000000#32) (ix2 r q) = _
  rw [matmul_f32_zero_apply Cert.Dots.kernel_weights, dotGeneral_apply Cert.Dots.ref_weights]
  refine Finset.sum_congr rfl fun k _ => ?_
  rw [maximumf_apply, maximumf_apply, aggregate_rows xb adj s bblk b n hx hb r k, zeroRows_apply]
  rfl

/-- The second hidden layer's body is the first's. -/
theorem hidden_rows' (xb : FVec Ideal Cert.KernelIdeal.S400x10000 .f32) (adj : FVec Ideal Cert.ReferenceIdeal.S10000x10000 .f32)
    (s : FVec Ideal Cert.KernelIdeal.S10000x16 .f32) (bblk : FVec Ideal Cert.KernelIdeal.S1x16 .f32)
    (b : FVec Ideal Cert.ReferenceIdeal.S16 .f32) (w : FVec Ideal Cert.KernelIdeal.S16x16 .f32) (n : Fin 400 → Fin 10000)
    (hx : ∀ r k, xb (ix2 r k) = adj (ix2 (n r) k)) (hb : ∀ q : Fin 16, bblk (ix2 (0 : Fin 1) q) = b (ix1 q))
    (r : Fin 400) (q : Fin 16) :
    Cert.KernelIdeal.Gen.k2_pay1 (F := Ideal) xb s bblk w (ix2 r q) = Cert.Spec.hidden adj s b w (ix2 (n r) q) :=
  hidden_rows xb adj s bblk b w n hx hb r q

/-- The input projection: the kernel's whole-array product is the reference's. -/
theorem project_eq (x : FVec Ideal Cert.KernelIdeal.S10000x128 .f32) (w : FVec Ideal Cert.KernelIdeal.S128x16 .f32) :
    Cert.KernelIdeal.Gen.k0_pay1 (F := Ideal) x w = Cert.Spec.project x w := by
  funext i
  obtain ⟨r, q, rfl⟩ : ∃ (r : Fin 10000) (q : Fin 16), i = ix2 r q := ⟨i 0, i 1, eq_ix2 i⟩
  unfold Cert.Spec.project
  show matmul Cert.KernelIdeal.dot_S10000x128_S128x16_S10000x16_1_0_0_1_n_n none x w
      (constant Cert.KernelIdeal.S10000x16 .f32 0x00000000#32) (ix2 r q) = _
  rw [matmul_f32_zero_apply Cert.Dots.kernel_project, dotGeneral_apply Cert.Dots.ref_project]

end Cert.Rows

end
-- ==== Proof.Region0.lean ====
/-
  The projection's region: the array its one write-back leaves.

  The region has no grid: its one point loads the whole feature matrix and the whole weights, multiplies them, and writes
  the whole product back. So the result array ends holding the projection of the arrays as the region finds them.
-/
import proofs.«144065_g45140106281004_cont_8to1c4_826_3_alg».proof.Proof.Gen.KernelIdeal.Frame
import proofs.«144065_g45140106281004_cont_8to1c4_826_3_alg».proof.Proof.LayerRows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every block index of the three whole-array windows is zero. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

abbrev xBlk (c : Dev nD) (t : Fin cfg0.N) : Vec Ideal S10000x128 .f32 := iblk0 V c 0 t
abbrev wBlk (c : Dev nD) (t : Fin cfg0.N) : Vec Ideal S128x16 .f32 := iblk0 V c 1 t

/-- The feature matrix's block is the whole matrix. -/
theorem xBlk_eq (c : Dev nD) (t : Fin cfg0.N) : xBlk V c t = (V c main_arg0 : FVec Ideal S10000x128 .f32) := by
  obtain ⟨e0, e1, -⟩ := idx_facts t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weights' block is the whole matrix. -/
theorem wBlk_eq (c : Dev nD) (t : Fin cfg0.N) : wBlk V c t = (V c main_arg2 : FVec Ideal S128x16 .f32) := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- The array index under an entry of the result's one block is the entry's own. -/
theorem out_emb (t : Fin cfg0.N) (j : S10000x16.Idx) : ((cfg0.win 2).blk t).view.emb j = j := by
  obtain ⟨-, -, -, -, e0, e1⟩ := idx_facts t
  funext a; apply Fin.ext
  match a with
  | ⟨0, _⟩ => show win0_2.index t (0 : Fin 2) * 10000 + 1 * (j 0).val = (j 0).val; rw [e0]; omega
  | ⟨1, _⟩ => show win0_2.index t (1 : Fin 2) * 16 + 1 * (j 1).val = (j 1).val; rw [e1]; omega

/-- WHAT THE ONE POINT WRITES BACK is the (whole) block of the projection of the arrays as the region finds them. -/
theorem flushed (c : Dev nD) (t : Fin cfg0.N) :
    (dat0 V c).flushed 2 t = ((cfg0.win 2).blk t).view.read (Elt Ideal) (Cert.Spec.project (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  funext j
  show k0_pay1 (F := Ideal) (xBlk V c t) (wBlk V c t) j = Cert.Spec.project (V c main_arg0) (V c main_arg2) (((cfg0.win 2).blk t).view.emb j)
  rw [xBlk_eq, wBlk_eq, Cert.Rows.project_eq]
  exact congrArg (Cert.Spec.project (V c main_arg0) (V c main_arg2)) (out_emb t j).symm

/-- An index of the array is in the point's block iff each coordinate is in the block's range on its axis. -/
theorem mem_blk (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- Every index of the result is in the one point's block. -/
theorem covered (i : S10000x16.Idx) : ∃ t : Fin cfg0.N, (cfg0.win 2).flush t = true ∧ i ∈ ((cfg0.win 2).blk t).view.set := by
  have hi0 : (i 0).val < 10000 := (i 0).isLt
  have hi1 : (i 1).val < 16 := (i 1).isLt
  obtain ⟨-, -, -, -, e0, e1⟩ := idx_facts t0_0
  refine ⟨t0_0, flush0_2 t0_0, ?_⟩
  rw [mem_blk]
  intro a
  match a with
  | ⟨0, _⟩ => show win0_2.index t0_0 (0 : Fin 2) * 10000 ≤ (i 0).val ∧ (i 0).val < win0_2.index t0_0 (0 : Fin 2) * 10000 + 10000; rw [e0]; omega
  | ⟨1, _⟩ => show win0_2.index t0_0 (1 : Fin 2) * 16 ≤ (i 1).val ∧ (i 1).val < win0_2.index t0_0 (1 : Fin 2) * 16 + 16; rw [e1]; omega

/-- THE RESULT ARRAY after the region: the projection of the arrays as the region finds them. -/
theorem final (c : Dev nD) : (dat0 V c).arrAt 2 cfg0.N = Cert.Spec.project (V c main_arg0) (V c main_arg2) :=
  (dat0 V c).arrAt_eq_of_cover 2 _ (fun t _ => flushed V c t) covered

end Cert.KernelIdeal.Region0

end
-- ==== Proof.Region1.lean ====
/-
  The first hidden layer's region: the array its write-backs leave.

  The region runs the layer body on 25 tiles of 400 rows of the adjacency; tile `t` is rows `400 t … 400 t + 399`, the
  support matrix, the bias block and the weights are the whole arrays at every tile, and tile `t` of the result is written
  back to rows `400 t … 400 t + 399`. So each write-back is its block of ONE matrix, the whole hidden layer of the
  arrays as the region finds them (`flushed`), the blocks cover the result (`covered`), and the result array ends holding
  that matrix (`final`).
-/
import proofs.«144065_g45140106281004_cont_8to1c4_826_3_alg».proof.Proof.Gen.KernelIdeal.Frame
import proofs.«144065_g45140106281004_cont_8to1c4_826_3_alg».proof.Proof.LayerRows
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's block row is the point, every other block
    index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt25 (t : Fin cfg1.N) : t.val < 25 := lt_of_lt_of_eq t.isLt N_1

/-- Row `r` of tile `t` is row `400 t + r` of the whole matrix. -/
def rowOf (t : Fin cfg1.N) (r : Fin 400) : Fin 10000 := ⟨t.val * 400 + r.val, by have := lt25 t; have := r.isLt; omega⟩

/-- The four input blocks at a point, at their literal shapes. -/
abbrev adjBlk (c : Dev nD) (t : Fin cfg1.N) : Vec Ideal S400x10000 .f32 := iblk1 V c 0 t
abbrev supBlk (c : Dev nD) (t : Fin cfg1.N) : Vec Ideal S10000x16 .f32 := iblk1 V c 1 t
abbrev biasBlk (c : Dev nD) (t : Fin cfg1.N) : Vec Ideal S8x16 .f32 := iblk1 V c 2 t
abbrev wBlk (c : Dev nD) (t : Fin cfg1.N) : Vec Ideal S16x16 .f32 := iblk1 V c 3 t
/-- The bias row the body loads: the first row of the bias block. -/
abbrev biasRow (c : Dev nD) (t : Fin cfg1.N) : Vec Ideal S1x16 .f32 := View.ld (Val := Elt Ideal) (biasBlk V c t) r1_2

/-- The adjacency's tile: rows `400 t …` of the adjacency. -/
theorem adjBlk_apply (c : Dev nD) (t : Fin cfg1.N) (r : Fin 400) (k : Fin 10000) :
    adjBlk V c t (ix2 r k) = (V c main_arg1 : FVec Ideal S10000x10000 .f32) (ix2 (rowOf t r) k) := by
  obtain ⟨e0, e1, -⟩ := idx_facts t
  show V c main_arg1 (((cfg1.win 0).blk t).view.emb (ix2 r k)) = V c main_arg1 (ix2 (rowOf t r) k)
  refine congrArg (V c main_arg1) (funext fun a => Fin.ext ?_)
  match a with
  | ⟨0, _⟩ => show win1_0.index t (0 : Fin 2) * 400 + 1 * r.val = t.val * 400 + r.val; rw [e0]; omega
  | ⟨1, _⟩ => show win1_0.index t (1 : Fin 2) * 10000 + 1 * k.val = k.val; rw [e1]; omega

/-- The support matrix's block is the whole matrix. -/
theorem supBlk_eq (c : Dev nD) (t : Fin cfg1.N) : supBlk V c t = (V c main_v0 : FVec Ideal S10000x16 .f32) := by
  obtain ⟨-, -, e0, e1, -⟩ := idx_facts t
  funext y
  show V c main_v0 (((cfg1.win 1).blk t).view.emb y) = V c main_v0 y
  refine congrArg (V c main_v0) (funext fun a => Fin.ext ?_)
  match a with
  | ⟨0, _⟩ => show win1_1.index t (0 : Fin 2) * 10000 + 1 * (y 0).val = (y 0).val; rw [e0]; omega
  | ⟨1, _⟩ => show win1_1.index t (1 : Fin 2) * 16 + 1 * (y 1).val = (y 1).val; rw [e1]; omega

/-- The weights' block is the whole matrix. -/
theorem wBlk_eq (c : Dev nD) (t : Fin cfg1.N) : wBlk V c t = (V c main_arg4 : FVec Ideal S16x16 .f32) := by
  obtain ⟨-, -, -, -, -, -, e0, e1, -⟩ := idx_facts t
  funext y
  show V c main_arg4 (((cfg1.win 3).blk t).view.emb y) = V c main_arg4 y
  refine congrArg (V c main_arg4) (funext fun a => Fin.ext ?_)
  match a with
  | ⟨0, _⟩ => show win1_3.index t (0 : Fin 2) * 16 + 1 * (y 0).val = (y 0).val; rw [e0]; omega
  | ⟨1, _⟩ => show win1_3.index t (1 : Fin 2) * 16 + 1 * (y 1).val = (y 1).val; rw [e1]; omega

/-- The bias row the body loads is row 0 of the bias array. -/
theorem bias_apply (c : Dev nD) (t : Fin cfg1.N) (q : Fin 16) :
    biasRow V c t (ix2 (0 : Fin 1) q) = (V c main_v2 : FVec Ideal S8x16 .f32) (ix2 (0 : Fin 8) q) := by
  obtain ⟨-, -, -, -, e0, e1, -⟩ := idx_facts t
  show V c main_v2 (((cfg1.win 2).blk t).view.emb (r1_2.idx (ix2 (0 : Fin 1) q))) = V c main_v2 (ix2 (0 : Fin 8) q)
  refine congrArg (V c main_v2) (funext fun a => Fin.ext ?_)
  match a with
  | ⟨0, _⟩ => show win1_2.index t (0 : Fin 2) * 8 + 1 * (0 + 1 * 0) = 0; rw [e0]
  | ⟨1, _⟩ => show win1_2.index t (1 : Fin 2) * 16 + 1 * (0 + 1 * q.val) = q.val; rw [e1]; omega

/-- The array index under entry `(r, q)` of the result's block at point `t`. -/
theorem out_emb (t : Fin cfg1.N) (r : Fin 400) (q : Fin 16) :
    ((cfg1.win 4).blk t).view.emb (ix2 r q) = (ix2 (rowOf t r) q : S10000x16.Idx) := by
  obtain ⟨-, -, -, -, -, -, -, -, e0, e1⟩ := idx_facts t
  funext a; apply Fin.ext
  match a with
  | ⟨0, _⟩ => show win1_4.index t (0 : Fin 2) * 400 + 1 * r.val = t.val * 400 + r.val; rw [e0]; omega
  | ⟨1, _⟩ => show win1_4.index t (1 : Fin 2) * 16 + 1 * q.val = q.val; rw [e1]; omega

/-- Entry `j` of the body's result on tile `t` is the whole hidden layer at the array index under it. -/
theorem tile_eq (c : Dev nD) (b : FVec Ideal Cert.ReferenceIdeal.S16 .f32)
    (hb : ∀ q : Fin 16, (V c main_v2 : FVec Ideal S8x16 .f32) (ix2 (0 : Fin 8) q) = b (ix1 q)) (t : Fin cfg1.N) (j : S400x16.Idx) :
    k1_pay1 (F := Ideal) (adjBlk V c t) (supBlk V c t) (biasRow V c t) (wBlk V c t) j
      = Cert.Spec.hidden (V c main_arg1) (V c main_v0) b (V c main_arg4) (((cfg1.win 4).blk t).view.emb j) := by
  obtain ⟨r, q, rfl⟩ : ∃ (r : Fin 400) (q : Fin 16), j = ix2 r q := ⟨j 0, j 1, eq_ix2 j⟩
  rw [supBlk_eq, wBlk_eq, out_emb]
  exact Cert.Rows.hidden_rows (adjBlk V c t) (V c main_arg1) (V c main_v0) (biasRow V c t) b (V c main_arg4)
    (rowOf t) (adjBlk_apply V c t) (fun q => (bias_apply V c t q).trans (hb q)) r q

/-- WHAT POINT `t` WRITES BACK is block `t` of the whole hidden layer of the arrays as the region finds them, `b` the bias
    vector row 0 of the bias array holds. -/
theorem flushed (c : Dev nD) (b : FVec Ideal Cert.ReferenceIdeal.S16 .f32)
    (hb : ∀ q : Fin 16, (V c main_v2 : FVec Ideal S8x16 .f32) (ix2 (0 : Fin 8) q) = b (ix1 q)) (t : Fin cfg1.N) :
    (dat1 V c).flushed 4 t = ((cfg1.win 4).blk t).view.read (Elt Ideal)
      (Cert.Spec.hidden (V c main_arg1) (V c main_v0) b (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x16) hz, View.ld_unit_zero (S := S16x16) hz]
  exact funext fun j => tile_eq V c b hb t j

/-- An index of the array is in point `t`'s block iff each coordinate is in the block's range on its axis. -/
theorem mem_blk (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v7).slice (win1_4.rect t)).set ↔ _
  rw [View.set_slice_whole, Rect.mem_set_unit]
  exact Iff.rfl

/-- Every index of the result is in some point's block: row `i` is in tile `i / 400`. -/
theorem covered (i : S10000x16.Idx) : ∃ t : Fin cfg1.N, (cfg1.win 4).flush t = true ∧ i ∈ ((cfg1.win 4).blk t).view.set := by
  have hi0 : (i 0).val < 10000 := (i 0).isLt
  have hi1 : (i 1).val < 16 := (i 1).isLt
  let t : Fin cfg1.N := ⟨(i 0).val / 400, by rw [show cfg1.N = 25 from N_1]; omega⟩
  obtain ⟨-, -, -, -, -, -, -, -, e0, e1⟩ := idx_facts t
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; rw [e0]; show (i 0).val / 400 * 400 ≤ (i 0).val ∧ (i 0).val < (i 0).val / 400 * 400 + 400; omega
  | ⟨1, _⟩ => show win1_4.index t (1 : Fin 2) * 16 ≤ (i 1).val ∧ (i 1).val < win1_4.index t (1 : Fin 2) * 16 + 16; rw [e1]; omega

/-- THE RESULT ARRAY after the region: the whole hidden layer of the arrays as the region finds them. -/
theorem final (c : Dev nD) (b : FVec Ideal Cert.ReferenceIdeal.S16 .f32)
    (hb : ∀ q : Fin 16, (V c main_v2 : FVec Ideal S8x16 .f32) (ix2 (0 : Fin 8) q) = b (ix1 q)) :
    (dat1 V c).arrAt 4 cfg1.N = Cert.Spec.hidden (V c main_arg1) (V c main_v0) b (V c main_arg4) :=
  (dat1 V c).arrAt_eq_of_cover 4 _ (fun t _ => flushed V c b hb t) covered

end Cert.KernelIdeal.Region1

end
-- ==== Proof.Region2.lean ====
/-
  The second hidden layer's region: the array its write-backs leave.

  The region runs the layer body on 25 tiles of 400 rows of the adjacency; tile `t` is rows `400 t … 400 t + 399`, the
  support matrix, the bias block and the weights are the whole arrays at every tile, and tile `t` of the result is written
  back to rows `400 t … 400 t + 399`. So each write-back is its block of ONE matrix, the whole hidden layer of the
  arrays as the region finds them (`flushed`), the blocks cover the result (`covered`), and the result array ends holding
  that matrix (`final`).
-/
import proofs.«144065_g45140106281004_cont_8to1c4_826_3_alg».proof.Proof.Gen.KernelIdeal.Frame
import proofs.«144065_g45140106281004_cont_8to1c4_826_3_alg».proof.Proof.LayerRows
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's block row is the point, every other block
    index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt25 (t : Fin cfg2.N) : t.val < 25 := lt_of_lt_of_eq t.isLt N_2

/-- Row `r` of tile `t` is row `400 t + r` of the whole matrix. -/
def rowOf (t : Fin cfg2.N) (r : Fin 400) : Fin 10000 := ⟨t.val * 400 + r.val, by have := lt25 t; have := r.isLt; omega⟩

/-- The four input blocks at a point, at their literal shapes. -/
abbrev adjBlk (c : Dev nD) (t : Fin cfg2.N) : Vec Ideal S400x10000 .f32 := iblk2 V c 0 t
abbrev supBlk (c : Dev nD) (t : Fin cfg2.N) : Vec Ideal S10000x16 .f32 := iblk2 V c 1 t
abbrev biasBlk (c : Dev nD) (t : Fin cfg2.N) : Vec Ideal S8x16 .f32 := iblk2 V c 2 t
abbrev wBlk (c : Dev nD) (t : Fin cfg2.N) : Vec Ideal S16x16 .f32 := iblk2 V c 3 t
/-- The bias row the body loads: the first row of the bias block. -/
abbrev biasRow (c : Dev nD) (t : Fin cfg2.N) : Vec Ideal S1x16 .f32 := View.ld (Val := Elt Ideal) (biasBlk V c t) r2_2

/-- The adjacency's tile: rows `400 t …` of the adjacency. -/
theorem adjBlk_apply (c : Dev nD) (t : Fin cfg2.N) (r : Fin 400) (k : Fin 10000) :
    adjBlk V c t (ix2 r k) = (V c main_arg1 : FVec Ideal S10000x10000 .f32) (ix2 (rowOf t r) k) := by
  obtain ⟨e0, e1, -⟩ := idx_facts t
  show V c main_arg1 (((cfg2.win 0).blk t).view.emb (ix2 r k)) = V c main_arg1 (ix2 (rowOf t r) k)
  refine congrArg (V c main_arg1) (funext fun a => Fin.ext ?_)
  match a with
  | ⟨0, _⟩ => show win2_0.index t (0 : Fin 2) * 400 + 1 * r.val = t.val * 400 + r.val; rw [e0]; omega
  | ⟨1, _⟩ => show win2_0.index t (1 : Fin 2) * 10000 + 1 * k.val = k.val; rw [e1]; omega

/-- The support matrix's block is the whole matrix. -/
theorem supBlk_eq (c : Dev nD) (t : Fin cfg2.N) : supBlk V c t = (V c main_v7 : FVec Ideal S10000x16 .f32) := by
  obtain ⟨-, -, e0, e1, -⟩ := idx_facts t
  funext y
  show V c main_v7 (((cfg2.win 1).blk t).view.emb y) = V c main_v7 y
  refine congrArg (V c main_v7) (funext fun a => Fin.ext ?_)
  match a with
  | ⟨0, _⟩ => show win2_1.index t (0 : Fin 2) * 10000 + 1 * (y 0).val = (y 0).val; rw [e0]; omega
  | ⟨1, _⟩ => show win2_1.index t (1 : Fin 2) * 16 + 1 * (y 1).val = (y 1).val; rw [e1]; omega

/-- The weights' block is the whole matrix. -/
theorem wBlk_eq (c : Dev nD) (t : Fin cfg2.N) : wBlk V c t = (V c main_arg6 : FVec Ideal S16x16 .f32) := by
  obtain ⟨-, -, -, -, -, -, e0, e1, -⟩ := idx_facts t
  funext y
  show V c main_arg6 (((cfg2.win 3).blk t).view.emb y) = V c main_arg6 y
  refine congrArg (V c main_arg6) (funext fun a => Fin.ext ?_)
  match a with
  | ⟨0, _⟩ => show win2_3.index t (0 : Fin 2) * 16 + 1 * (y 0).val = (y 0).val; rw [e0]; omega
  | ⟨1, _⟩ => show win2_3.index t (1 : Fin 2) * 16 + 1 * (y 1).val = (y 1).val; rw [e1]; omega

/-- The bias row the body loads is row 0 of the bias array. -/
theorem bias_apply (c : Dev nD) (t : Fin cfg2.N) (q : Fin 16) :
    biasRow V c t (ix2 (0 : Fin 1) q) = (V c main_v4 : FVec Ideal S8x16 .f32) (ix2 (0 : Fin 8) q) := by
  obtain ⟨-, -, -, -, e0, e1, -⟩ := idx_facts t
  show V c main_v4 (((cfg2.win 2).blk t).view.emb (r2_2.idx (ix2 (0 : Fin 1) q))) = V c main_v4 (ix2 (0 : Fin 8) q)
  refine congrArg (V c main_v4) (funext fun a => Fin.ext ?_)
  match a with
  | ⟨0, _⟩ => show win2_2.index t (0 : Fin 2) * 8 + 1 * (0 + 1 * 0) = 0; rw [e0]
  | ⟨1, _⟩ => show win2_2.index t (1 : Fin 2) * 16 + 1 * (0 + 1 * q.val) = q.val; rw [e1]; omega

/-- The array index under entry `(r, q)` of the result's block at point `t`. -/
theorem out_emb (t : Fin cfg2.N) (r : Fin 400) (q : Fin 16) :
    ((cfg2.win 4).blk t).view.emb (ix2 r q) = (ix2 (rowOf t r) q : S10000x16.Idx) := by
  obtain ⟨-, -, -, -, -, -, -, -, e0, e1⟩ := idx_facts t
  funext a; apply Fin.ext
  match a with
  | ⟨0, _⟩ => show win2_4.index t (0 : Fin 2) * 400 + 1 * r.val = t.val * 400 + r.val; rw [e0]; omega
  | ⟨1, _⟩ => show win2_4.index t (1 : Fin 2) * 16 + 1 * q.val = q.val; rw [e1]; omega

/-- Entry `j` of the body's result on tile `t` is the whole hidden layer at the array index under it. -/
theorem tile_eq (c : Dev nD) (b : FVec Ideal Cert.ReferenceIdeal.S16 .f32)
    (hb : ∀ q : Fin 16, (V c main_v4 : FVec Ideal S8x16 .f32) (ix2 (0 : Fin 8) q) = b (ix1 q)) (t : Fin cfg2.N) (j : S400x16.Idx) :
    k2_pay1 (F := Ideal) (adjBlk V c t) (supBlk V c t) (biasRow V c t) (wBlk V c t) j
      = Cert.Spec.hidden (V c main_arg1) (V c main_v7) b (V c main_arg6) (((cfg2.win 4).blk t).view.emb j) := by
  obtain ⟨r, q, rfl⟩ : ∃ (r : Fin 400) (q : Fin 16), j = ix2 r q := ⟨j 0, j 1, eq_ix2 j⟩
  rw [supBlk_eq, wBlk_eq, out_emb]
  exact Cert.Rows.hidden_rows' (adjBlk V c t) (V c main_arg1) (V c main_v7) (biasRow V c t) b (V c main_arg6)
    (rowOf t) (adjBlk_apply V c t) (fun q => (bias_apply V c t q).trans (hb q)) r q

/-- WHAT POINT `t` WRITES BACK is block `t` of the whole hidden layer of the arrays as the region finds them, `b` the bias
    vector row 0 of the bias array holds. -/
theorem flushed (c : Dev nD) (b : FVec Ideal Cert.ReferenceIdeal.S16 .f32)
    (hb : ∀ q : Fin 16, (V c main_v4 : FVec Ideal S8x16 .f32) (ix2 (0 : Fin 8) q) = b (ix1 q)) (t : Fin cfg2.N) :
    (dat2 V c).flushed 4 t = ((cfg2.win 4).blk t).view.read (Elt Ideal)
      (Cert.Spec.hidden (V c main_arg1) (V c main_v7) b (V c main_arg6)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x16) hz, View.ld_unit_zero (S := S16x16) hz]
  exact funext fun j => tile_eq V c b hb t j

/-- An index of the array is in point `t`'s block iff each coordinate is in the block's range on its axis. -/
theorem mem_blk (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v8).slice (win2_4.rect t)).set ↔ _
  rw [View.set_slice_whole, Rect.mem_set_unit]
  exact Iff.rfl

/-- Every index of the result is in some point's block: row `i` is in tile `i / 400`. -/
theorem covered (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  let t : Fin cfg2.N := ⟨(i 0).val / 400, by rw [show cfg2.N = 25 from N_2]; omega⟩
  obtain ⟨-, -, -, -, -, -, -, -, e0, e1⟩ := idx_facts t
  refine ⟨t, flush2_4 t, ?_⟩
  rw [mem_blk]
  intro a
  match a with
  | ⟨0, _⟩ => show win2_4.index t (0 : Fin 2) * 400 ≤ (i 0).val ∧ (i 0).val < win2_4.index t (0 : Fin 2) * 400 + 400; rw [e0]; show (i 0).val / 400 * 400 ≤ (i 0).val ∧ (i 0).val < (i 0).val / 400 * 400 + 400; omega
  | ⟨1, _⟩ => show win2_4.index t (1 : Fin 2) * 16 ≤ (i 1).val ∧ (i 1).val < win2_4.index t (1 : Fin 2) * 16 + 16; rw [e1]; omega

/-- THE RESULT ARRAY after the region: the whole hidden layer of the arrays as the region finds them. -/
theorem final (c : Dev nD) (b : FVec Ideal Cert.ReferenceIdeal.S16 .f32)
    (hb : ∀ q : Fin 16, (V c main_v4 : FVec Ideal S8x16 .f32) (ix2 (0 : Fin 8) q) = b (ix1 q)) :
    (dat2 V c).arrAt 4 cfg2.N = Cert.Spec.hidden (V c main_arg1) (V c main_v7) b (V c main_arg6) :=
  (dat2 V c).arrAt_eq_of_cover 4 _ (fun t _ => flushed V c b hb t) covered

end Cert.KernelIdeal.Region2

end
-- ==== Proof.FinalRows.lean ====
/-
  The last layer on a row tile: the logarithmic softmax of the aggregation, row by row.
-/
import proofs.«144065_g45140106281004_cont_8to1c4_826_3_alg».proof.Proof.LayerRows
import Idealize.ShloMosaic.PureOps.Ideal.Laws
import Idealize.ShloMosaic.Lib.ValueLayout
import Idealize.ShloMosaic.Lib.IdealHost

noncomputable section

namespace Cert.Rows

open Idealize.ShloMosaic Idealize.ShloMosaic.ValueIdx Cert.Lib

namespace Final

/-- For real `y`, `m` and any extended real `L`: `(y - m) - L = y - (L + m)`. -/
theorem sub_sub_eq_sub_add_of_real (y m : ℝ) (L : EReal) : ((y : EReal) - m) - L = y - (L + m) := by
  rw [sub_eq_add_neg, sub_eq_add_neg, sub_eq_add_neg,
    EReal.neg_add (Or.inr (EReal.coe_ne_top m)) (Or.inr (EReal.coe_ne_bot m)), sub_eq_add_neg]
  ac_rfl

/-- The f32 word of `-∞` is the extended real `⊥`. -/
theorem ofBits_negInf_f32 : Ideal.ofBits .f32 0xFF800000#32 = ⊥ := by simp [Ideal.ofBits, Ideal.ieee]

/-- The maximum from `⊥` of finitely many reals, at least one, is a real. -/
theorem fold_max_real {ι : Type} [Fintype ι] (j0 : ι) (f : ι → EReal) (hf : ∀ j, ∃ a : ℝ, f j = (a : EReal)) :
    ∃ m : ℝ, (Finset.univ : Finset ι).fold max ⊥ f = (m : EReal) := by
  have htop : (Finset.univ : Finset ι).fold max ⊥ f ≠ ⊤ :=
    ne_of_lt ((Finset.fold_max_lt _).2 ⟨bot_lt_top, fun j _ => by obtain ⟨a, ha⟩ := hf j; rw [ha]; exact EReal.coe_lt_top a⟩)
  have hbot : (Finset.univ : Finset ι).fold max ⊥ f ≠ ⊥ :=
    ne_of_gt ((Finset.lt_fold_max _).2 (Or.inr ⟨j0, Finset.mem_univ _, by obtain ⟨a, ha⟩ := hf j0; rw [ha]; exact EReal.bot_lt_coe a⟩))
  exact ⟨_, (EReal.coe_toReal htop hbot).symm⟩

/-- A vector `[a]` cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One row's logarithmic softmax as the kernel spells it: `v q - (log Σ exp (v - max v) + max v)`, the maximum taken from `⊥`. -/
def rowLsmK (v : Fin 16 → EReal) (q : Fin 16) : EReal :=
  v q - (Ideal.log (∑ k : Fin 16, Ideal.exp (v k - (Finset.univ : Finset (Fin 16)).fold max ⊥ v))
    + (Finset.univ : Finset (Fin 16)).fold max ⊥ v)

/-- The row maximum the kernel body takes, read at a row. -/
theorem kernel_rowMax_apply (y : FVec Ideal Cert.KernelIdeal.S400x16 .f32) (r : Fin 400) :
    multiReduction (F := Ideal) .maximumf [1] Cert.KernelIdeal.S400 y 0xFF800000#32 Cert.KernelIdeal.Gen.reduces_S400x16_S400 (.inl rfl) rfl (ix1 r)
      = (Finset.univ : Finset (Fin 16)).fold max ⊥ (fun k => y (ix2 r k)) := by
  refine (Ideal.multiReduction_maximumf_single y 0xFF800000#32 Cert.KernelIdeal.Gen.reduces_S400x16_S400 (.inl rfl) rfl (ix1 r)).trans ?_
  rw [Ideal.ofBits_def, ofBits_negInf_f32]
  refine congrArg (fun f => Finset.fold max ⊥ f (Finset.univ : Finset (Fin 16))) (funext fun k => ?_)
  exact congrArg y (funext fun a => Fin.ext (by match a with | ⟨0, _⟩ => rfl | ⟨1, _⟩ => rfl))

/-- The elementwise exponential and logarithm read at an index, in the kernel's and in the host's spelling: one function. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The row sum the kernel body takes, read at a row. -/
theorem kernel_rowSum_apply (e : FVec Ideal Cert.KernelIdeal.S400x16 .f32) (r : Fin 400) :
    multiReduction (F := Ideal) .add [1] Cert.KernelIdeal.S400 e 0x00000000#32 Cert.KernelIdeal.Gen.reduces_S400x16_S400 (.inl rfl) rfl (ix1 r)
      = ∑ k : Fin 16, e (ix2 r k) := by
  refine (Ideal.multiReduction_add_single e 0x00000000#32 Cert.KernelIdeal.Gen.reduces_S400x16_S400 (.inl rfl) rfl (ix1 r)).trans ?_
  refine Finset.sum_congr rfl fun k _ => ?_
  exact congrArg e (funext fun a => Fin.ext (by match a with | ⟨0, _⟩ => rfl | ⟨1, _⟩ => rfl))

/-- The kernel body after the aggregation `y`, read at `(r, q)`: row `r`'s logarithmic softmax at `q`. -/
theorem kernel_tail_apply (y : FVec Ideal Cert.KernelIdeal.S400x16 .f32) (r : Fin 400) (q : Fin 16) :
    subf y (broadcastTo Cert.KernelIdeal.S400x16
      (addf (log (shapeCast Cert.KernelIdeal.S400x1
          (multiReduction (F := Ideal) .add [1] Cert.KernelIdeal.S400
            (exp (subf y (broadcastTo Cert.KernelIdeal.S400x16
              (shapeCast Cert.KernelIdeal.S400x1
                (multiReduction (F := Ideal) .maximumf [1] Cert.KernelIdeal.S400 y 0xFF800000#32 Cert.KernelIdeal.Gen.reduces_S400x16_S400 (.inl rfl) rfl)
                Cert.KernelIdeal.Gen.shapeCasts_S400_S400x1)
              Cert.KernelIdeal.Gen.broadcasts_S400x1_S400x16)))
            0x00000000#32 Cert.KernelIdeal.Gen.reduces_S400x16_S400 (.inl rfl) rfl)
          Cert.KernelIdeal.Gen.shapeCasts_S400_S400x1))
        (shapeCast Cert.KernelIdeal.S400x1
          (multiReduction (F := Ideal) .maximumf [1] Cert.KernelIdeal.S400 y 0xFF800000#32 Cert.KernelIdeal.Gen.reduces_S400x16_S400 (.inl rfl) rfl)
          Cert.KernelIdeal.Gen.shapeCasts_S400_S400x1))
      Cert.KernelIdeal.Gen.broadcasts_S400x1_S400x16) (ix2 r q)
    = rowLsmK (fun k => y (ix2 r k)) q := by
  unfold rowLsmK
  rw [subf_apply, broadcastTo_a1_ab_apply, addf_apply, log_apply, shapeCast_a_a1_apply, shapeCast_a_a1_apply,
    kernel_rowSum_apply, kernel_rowMax_apply]
  refine congrArg (fun S => y (ix2 r q) - (Ideal.log S + _)) (Finset.sum_congr rfl fun k _ => ?_)
  rw [exp_apply, subf_apply, broadcastTo_a1_ab_apply, shapeCast_a_a1_apply, kernel_rowMax_apply]

/-- One row's logarithmic softmax as the reference spells it: `(v q - max ⊥ (max v)) - log (0 + Σ exp (v - max ⊥ (max v)))`. -/
def rowLsmR (v : Fin 16 → EReal) (q : Fin 16) : EReal :=
  (v q - max ⊥ ((Finset.univ : Finset (Fin 16)).fold max ⊥ v))
    - Ideal.log (0 + ∑ k : Fin 16, Ideal.exp (v k - max ⊥ ((Finset.univ : Finset (Fin 16)).fold max ⊥ v)))

/-- The reference's repeated row maximum, read at `(p, c)`. -/
theorem ref_rowMax_apply (Y : FVec Ideal Cert.ReferenceIdeal.S10000x16 .f32) (p : Fin 10000) (c : Fin 16) :
    Cert.Spec.rowMax Y (ix2 p c) = max ⊥ ((Finset.univ : Finset (Fin 16)).fold max ⊥ (fun k => Y (ix2 p k))) := by
  unfold Cert.Spec.rowMax
  refine (broadcastInDim_apply _ _ _ (ix2 p c) (ix2 p (0 : Fin 1)) (fun a => match a with
    | ⟨0, _⟩ => by show p.val = if (10000 : Nat) = 1 then 0 else p.val; rw [if_neg (by decide)]
    | ⟨1, _⟩ => by show 0 = if (1 : Nat) = 1 then 0 else c.val; rw [if_pos rfl])).trans ?_
  refine (broadcastInDim_apply _ _ _ (ix2 p (0 : Fin 1)) (ix1 p) (fun a => match a with
    | ⟨0, _⟩ => by show p.val = if (10000 : Nat) = 1 then 0 else p.val; rw [if_neg (by decide)])).trans ?_
  rw [maximumf_apply]
  refine congrArg₂ max ?_ ?_
  · refine (broadcastInDim_apply _ _ _ (ix1 p) ValueIdx.ix0 (fun a => a.elim0)).trans ?_
    rw [constant_apply, ofBits_negInf_f32]
  · refine (Host.reduce_eq_fold_single FloatOps.maximumf Y _ Cert.ReferenceIdeal.Facts₀.reducesTo_S10000x16_S10000_d1
      (by decide) Cert.ReferenceIdeal.Facts₀.h_S_ (ix1 p)).trans ?_
    show Finset.fold max (Ideal.ofBits .f32 0xFF800000#32) _ _ = _
    rw [ofBits_negInf_f32]
    refine congrArg (fun f => Finset.fold max ⊥ f (Finset.univ : Finset (Fin 16))) (funext fun k => ?_)
    exact congrArg Y (funext fun a => Fin.ext (by match a with | ⟨0, _⟩ => rfl | ⟨1, _⟩ => rfl))

/-- The reference's row sum from `0`, read at a row. -/
theorem ref_rowSum_apply (E : FVec Ideal Cert.ReferenceIdeal.S10000x16 .f32) (p : Fin 10000) :
    Host.reduceAdd (F := Ideal) E (constant (F := Ideal) Cert.ReferenceIdeal.S_ .f32 0x00000000#32)
        Cert.ReferenceIdeal.Facts₀.reducesTo_S10000x16_S10000_d1 Cert.ReferenceIdeal.Facts₀.h_S_ (ix1 p)
      = 0 + ∑ k : Fin 16, E (ix2 p k) := by
  rw [hostReduceAdd_apply, Ideal.hostReduceAdd_single Cert.ReferenceIdeal.Facts₀.reducesTo_S10000x16_S10000_d1 (by decide),
    constant_apply, Ideal.ofBits_zero_f32]
  refine congrArg (fun S => (0 : EReal) + S) (Finset.sum_congr rfl fun k _ => ?_)
  exact congrArg E (funext fun a => Fin.ext (by match a with | ⟨0, _⟩ => rfl | ⟨1, _⟩ => rfl))

/-- The reference's logarithmic softmax read at `(p, q)`: row `p`'s at `q`. -/
theorem ref_logSoftmax_apply (Y : FVec Ideal Cert.ReferenceIdeal.S10000x16 .f32) (p : Fin 10000) (q : Fin 16) :
    Cert.Spec.logSoftmax Y (ix2 p q) = rowLsmR (fun k => Y (ix2 p k)) q := by
  unfold Cert.Spec.logSoftmax rowLsmR
  rw [subf_apply, subf_apply, ref_rowMax_apply]
  refine congrArg (fun L => (Y (ix2 p q) - max ⊥ ((Finset.univ : Finset (Fin 16)).fold max ⊥ (fun k => Y (ix2 p k)))) - L) ?_
  refine (broadcastInDim_apply _ _ _ (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])).trans ?_
  rw [hostLog_apply]
  refine congrArg Ideal.log ?_
  refine (broadcastInDim_apply _ _ _ (ix2 p (0 : Fin 1)) (ix1 p) (fun a => match a with
    | ⟨0, _⟩ => by show p.val = if (10000 : Nat) = 1 then 0 else p.val; rw [if_neg (by decide)])).trans ?_
  rw [ref_rowSum_apply]
  refine congrArg (fun S => (0 : EReal) + S) (Finset.sum_congr rfl fun k _ => ?_)
  rw [hostExp_apply, subf_apply, ref_rowMax_apply]

/-- One row, all of whose entries are real: the kernel's spelling and the reference's give one value. -/
theorem rowLsm_eq (v : Fin 16 → EReal) (hv : ∀ j, ∃ a : ℝ, v j = (a : EReal)) (q : Fin 16) : rowLsmK v q = rowLsmR v q := by
  obtain ⟨m, hm⟩ := fold_max_real q v hv
  obtain ⟨a, ha⟩ := hv q
  unfold rowLsmK rowLsmR
  rw [hm, max_eq_right bot_le, zero_add, ha]
  exact (sub_sub_eq_sub_add_of_real a m _).symm

end Final

open Final

/-- The last layer on a row tile: where row `n r` of the aggregation `adj · s + bias` holds real numbers, entry `(r, q)` of the
    kernel body's `y - (log Σ exp (y - max y) + max y)` is entry `(n r, q)` of the reference's
    `(y - max y) - log Σ exp (y - max y)`. -/
theorem final_rows (xb : FVec Ideal Cert.KernelIdeal.S400x10000 .f32) (adj : FVec Ideal Cert.ReferenceIdeal.S10000x10000 .f32)
    (s : FVec Ideal Cert.KernelIdeal.S10000x16 .f32) (bblk : FVec Ideal Cert.KernelIdeal.S1x16 .f32)
    (b : FVec Ideal Cert.ReferenceIdeal.S16 .f32) (n : Fin 400 → Fin 10000)
    (hx : ∀ r k, xb (ix2 r k) = adj (ix2 (n r) k)) (hb : ∀ q : Fin 16, bblk (ix2 (0 : Fin 1) q) = b (ix1 q))
    (r : Fin 400) (q : Fin 16)
    (hreal : ∀ j : Fin 16, ∃ a : ℝ, Cert.Spec.aggregate adj s b (ix2 (n r) j) = (a : EReal)) :
    Cert.KernelIdeal.Gen.k3_pay1 (F := Ideal) xb s bblk (ix2 r q)
      = Cert.Spec.logSoftmax (Cert.Spec.aggregate adj s b) (ix2 (n r) q) := by
  refine (kernel_tail_apply (addf (matmul Cert.KernelIdeal.dot_S400x10000_S10000x16_S400x16_1_0_0_1_n_n none xb
          (shapeCast Cert.KernelIdeal.S10000x16 s Cert.KernelIdeal.Gen.shapeCasts_S10000x16_S10000x16)
          (constant Cert.KernelIdeal.S400x16 .f32 0x00000000#32))
        (broadcastTo Cert.KernelIdeal.S400x16 (shapeCast Cert.KernelIdeal.S1x16 bblk Cert.KernelIdeal.Gen.shapeCasts_S1x16_S1x16)
          Cert.KernelIdeal.Gen.broadcasts_S1x16_S400x16)) r q).trans ?_
  rw [ref_logSoftmax_apply, funext fun k => aggregate_rows xb adj s bblk b n hx hb r k]
  exact rowLsm_eq _ hreal q

end Cert.Rows

end
-- ==== Proof.Region3.lean ====
/-
  The last layer's region: the array its write-backs leave.

  The region runs the last layer's body on 25 tiles of 400 rows of the adjacency; tile `t` is rows `400 t … 400 t + 399`,
  the support matrix and the bias block are the whole arrays at every tile, and tile `t` of the result is written back to
  rows `400 t … 400 t + 399`. Where the aggregation `adj · s + bias` holds real numbers only, each write-back is its block
  of ONE matrix, the logarithmic softmax of that aggregation (`flushed`); the blocks cover the result (`covered`), and
  the result array ends holding that matrix (`final`).
-/
import proofs.«144065_g45140106281004_cont_8to1c4_826_3_alg».proof.Proof.Gen.KernelIdeal.Frame
import proofs.«144065_g45140106281004_cont_8to1c4_826_3_alg».proof.Proof.FinalRows
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's block row is the point, every other block
    index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt25 (t : Fin cfg3.N) : t.val < 25 := lt_of_lt_of_eq t.isLt N_3

/-- Row `r` of tile `t` is row `400 t + r` of the whole matrix. -/
def rowOf (t : Fin cfg3.N) (r : Fin 400) : Fin 10000 := ⟨t.val * 400 + r.val, by have := lt25 t; have := r.isLt; omega⟩

/-- The three input blocks at a point, at their literal shapes. -/
abbrev adjBlk (c : Dev nD) (t : Fin cfg3.N) : Vec Ideal S400x10000 .f32 := iblk3 V c 0 t
abbrev supBlk (c : Dev nD) (t : Fin cfg3.N) : Vec Ideal S10000x16 .f32 := iblk3 V c 1 t
abbrev biasBlk (c : Dev nD) (t : Fin cfg3.N) : Vec Ideal S8x16 .f32 := iblk3 V c 2 t
/-- The bias row the body loads: the first row of the bias block. -/
abbrev biasRow (c : Dev nD) (t : Fin cfg3.N) : Vec Ideal S1x16 .f32 := View.ld (Val := Elt Ideal) (biasBlk V c t) r3_2

/-- The adjacency's tile: rows `400 t …` of the adjacency. -/
theorem adjBlk_apply (c : Dev nD) (t : Fin cfg3.N) (r : Fin 400) (k : Fin 10000) :
    adjBlk V c t (ix2 r k) = (V c main_arg1 : FVec Ideal S10000x10000 .f32) (ix2 (rowOf t r) k) := by
  obtain ⟨e0, e1, -⟩ := idx_facts t
  show V c main_arg1 (((cfg3.win 0).blk t).view.emb (ix2 r k)) = V c main_arg1 (ix2 (rowOf t r) k)
  refine congrArg (V c main_arg1) (funext fun a => Fin.ext ?_)
  match a with
  | ⟨0, _⟩ => show win3_0.index t (0 : Fin 2) * 400 + 1 * r.val = t.val * 400 + r.val; rw [e0]; omega
  | ⟨1, _⟩ => show win3_0.index t (1 : Fin 2) * 10000 + 1 * k.val = k.val; rw [e1]; omega

/-- The support matrix's block is the whole matrix. -/
theorem supBlk_eq (c : Dev nD) (t : Fin cfg3.N) : supBlk V c t = (V c main_v8 : FVec Ideal S10000x16 .f32) := by
  obtain ⟨-, -, e0, e1, -⟩ := idx_facts t
  funext y
  show V c main_v8 (((cfg3.win 1).blk t).view.emb y) = V c main_v8 y
  refine congrArg (V c main_v8) (funext fun a => Fin.ext ?_)
  match a with
  | ⟨0, _⟩ => show win3_1.index t (0 : Fin 2) * 10000 + 1 * (y 0).val = (y 0).val; rw [e0]; omega
  | ⟨1, _⟩ => show win3_1.index t (1 : Fin 2) * 16 + 1 * (y 1).val = (y 1).val; rw [e1]; omega

/-- The bias row the body loads is row 0 of the bias array. -/
theorem bias_apply (c : Dev nD) (t : Fin cfg3.N) (q : Fin 16) :
    biasRow V c t (ix2 (0 : Fin 1) q) = (V c main_v6 : FVec Ideal S8x16 .f32) (ix2 (0 : Fin 8) q) := by
  obtain ⟨-, -, -, -, e0, e1, -⟩ := idx_facts t
  show V c main_v6 (((cfg3.win 2).blk t).view.emb (r3_2.idx (ix2 (0 : Fin 1) q))) = V c main_v6 (ix2 (0 : Fin 8) q)
  refine congrArg (V c main_v6) (funext fun a => Fin.ext ?_)
  match a with
  | ⟨0, _⟩ => show win3_2.index t (0 : Fin 2) * 8 + 1 * (0 + 1 * 0) = 0; rw [e0]
  | ⟨1, _⟩ => show win3_2.index t (1 : Fin 2) * 16 + 1 * (0 + 1 * q.val) = q.val; rw [e1]; omega

/-- The array index under entry `(r, q)` of the result's block at point `t`. -/
theorem out_emb (t : Fin cfg3.N) (r : Fin 400) (q : Fin 16) :
    ((cfg3.win 3).blk t).view.emb (ix2 r q) = (ix2 (rowOf t r) q : S10000x16.Idx) := by
  obtain ⟨-, -, -, -, -, -, e0, e1⟩ := idx_facts t
  funext a; apply Fin.ext
  match a with
  | ⟨0, _⟩ => show win3_3.index t (0 : Fin 2) * 400 + 1 * r.val = t.val * 400 + r.val; rw [e0]; omega
  | ⟨1, _⟩ => show win3_3.index t (1 : Fin 2) * 16 + 1 * q.val = q.val; rw [e1]; omega

/-- Entry `j` of the body's result on tile `t` is the logarithmic softmax of the whole aggregation at the array index under it. -/
theorem tile_eq (c : Dev nD) (b : FVec Ideal Cert.ReferenceIdeal.S16 .f32)
    (hb : ∀ q : Fin 16, (V c main_v6 : FVec Ideal S8x16 .f32) (ix2 (0 : Fin 8) q) = b (ix1 q))
    (hreal : Cert.Lib.IsReal (Cert.Spec.aggregate (V c main_arg1) (V c main_v8) b)) (t : Fin cfg3.N) (j : S400x16.Idx) :
    k3_pay1 (F := Ideal) (adjBlk V c t) (supBlk V c t) (biasRow V c t) j
      = Cert.Spec.logSoftmax (Cert.Spec.aggregate (V c main_arg1) (V c main_v8) b) (((cfg3.win 3).blk t).view.emb j) := by
  obtain ⟨r, q, rfl⟩ : ∃ (r : Fin 400) (q : Fin 16), j = ix2 r q := ⟨j 0, j 1, eq_ix2 j⟩
  rw [supBlk_eq, out_emb]
  exact Cert.Rows.final_rows (adjBlk V c t) (V c main_arg1) (V c main_v8) (biasRow V c t) b
    (rowOf t) (adjBlk_apply V c t) (fun q => (bias_apply V c t q).trans (hb q)) r q (fun j => hreal _)

/-- WHAT POINT `t` WRITES BACK is block `t` of the logarithmic softmax of the aggregation of the arrays as the region finds
    them, `b` the bias vector row 0 of the bias array holds. -/
theorem flushed (c : Dev nD) (b : FVec Ideal Cert.ReferenceIdeal.S16 .f32)
    (hb : ∀ q : Fin 16, (V c main_v6 : FVec Ideal S8x16 .f32) (ix2 (0 : Fin 8) q) = b (ix1 q))
    (hreal : Cert.Lib.IsReal (Cert.Spec.aggregate (V c main_arg1) (V c main_v8) b)) (t : Fin cfg3.N) :
    (dat3 V c).flushed 3 t = ((cfg3.win 3).blk t).view.read (Elt Ideal)
      (Cert.Spec.logSoftmax (Cert.Spec.aggregate (V c main_arg1) (V c main_v8) b)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz]
  exact funext fun j => tile_eq V c b hb hreal t j

/-- An index of the array is in point `t`'s block iff each coordinate is in the block's range on its axis. -/
theorem mem_blk (t : Fin cfg3.N) (i : S10000x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v9).slice (win3_3.rect t)).set ↔ _
  rw [View.set_slice_whole, Rect.mem_set_unit]
  exact Iff.rfl

/-- Every index of the result is in some point's block: row `i` is in tile `i / 400`. -/
theorem covered (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  let t : Fin cfg3.N := ⟨(i 0).val / 400, by rw [show cfg3.N = 25 from N_3]; omega⟩
  obtain ⟨-, -, -, -, -, -, e0, e1⟩ := idx_facts t
  refine ⟨t, flush3_3 t, ?_⟩
  rw [mem_blk]
  intro a
  match a with
  | ⟨0, _⟩ => show win3_3.index t (0 : Fin 2) * 400 ≤ (i 0).val ∧ (i 0).val < win3_3.index t (0 : Fin 2) * 400 + 400; rw [e0]; show (i 0).val / 400 * 400 ≤ (i 0).val ∧ (i 0).val < (i 0).val / 400 * 400 + 400; omega
  | ⟨1, _⟩ => show win3_3.index t (1 : Fin 2) * 16 ≤ (i 1).val ∧ (i 1).val < win3_3.index t (1 : Fin 2) * 16 + 16; rw [e1]; omega

/-- THE RESULT ARRAY after the region: the logarithmic softmax of the aggregation of the arrays as the region finds them. -/
theorem final (c : Dev nD) (b : FVec Ideal Cert.ReferenceIdeal.S16 .f32)
    (hb : ∀ q : Fin 16, (V c main_v6 : FVec Ideal S8x16 .f32) (ix2 (0 : Fin 8) q) = b (ix1 q))
    (hreal : Cert.Lib.IsReal (Cert.Spec.aggregate (V c main_arg1) (V c main_v8) b)) :
    (dat3 V c).arrAt 3 cfg3.N = Cert.Spec.logSoftmax (Cert.Spec.aggregate (V c main_arg1) (V c main_v8) b) :=
  (dat3 V c).arrAt_eq_of_cover 3 _ (fun t _ => flushed V c b hb hreal t) covered

end Cert.KernelIdeal.Region3

end
-- ==== Proof.SpecReal.lean ====
/-
  The network of real inputs stays real up to the last aggregation, and the reference's result is the network.

  With every entry of the eight arguments a real number, the projection, each aggregation `adj · s + b`, each clamp at
  zero and each product with the next weights is again a matrix of real numbers (finite sums of products of reals), so the
  matrix the logarithmic softmax is taken of holds no infinity (`logits_real`). And the reference program's composed
  result term is, read off its text, the network `gcn` of its arguments (`ref_result`).
-/
import proofs.«144065_g45140106281004_cont_8to1c4_826_3_alg».proof.Proof.Spec
import proofs.«144065_g45140106281004_cont_8to1c4_826_3_alg».proof.Proof.Dots
import proofs.«144065_g45140106281004_cont_8to1c4_826_3_alg».proof.Proof.LibRealRows
import proofs.«144065_g45140106281004_cont_8to1c4_826_3_alg».proof.Proof.RefRun

noncomputable section

namespace Cert.Spec

open Idealize.ShloMosaic Idealize.ShloMosaic.ValueIdx Cert.Lib Cert.ReferenceIdeal

variable [Cert.ReferenceIdeal.Facts]
open Cert.ReferenceIdeal.Facts₀

/-- The zero matrix holds the real number zero. -/
theorem zeroRows_real : IsReal zeroRows := by
  intro i
  refine ⟨0, ?_⟩
  unfold zeroRows
  rw [broadcastInDim_apply _ _ _ i ValueIdx.ix0 (fun a => a.elim0), constant_apply, Ideal.ofBits_zero_f32]
  rfl

theorem project_real {x : FVec Ideal S10000x128 .f32} {w : FVec Ideal S128x16 .f32} (hx : IsReal x) (hw : IsReal w) :
    IsReal (project x w) :=
  isReal_dotGeneral (R := 10000) (K := 128) (M := 16) Cert.Dots.ref_project hx hw

theorem aggregate_real {adj : FVec Ideal S10000x10000 .f32} {s : FVec Ideal S10000x16 .f32} {b : FVec Ideal S16 .f32}
    (ha : IsReal adj) (hs : IsReal s) (hb : IsReal b) : IsReal (aggregate adj s b) :=
  isReal_addf (isReal_dotGeneral (R := 10000) (K := 10000) (M := 16) Cert.Dots.ref_aggregate ha hs)
    (isReal_bias_rows (M := 16) (N := 10000) hb _ _)

theorem hidden_real {adj : FVec Ideal S10000x10000 .f32} {s : FVec Ideal S10000x16 .f32} {b : FVec Ideal S16 .f32}
    {w : FVec Ideal S16x16 .f32} (ha : IsReal adj) (hs : IsReal s) (hb : IsReal b) (hw : IsReal w) : IsReal (hidden adj s b w) :=
  isReal_dotGeneral (R := 10000) (K := 16) (M := 16) Cert.Dots.ref_weights
    (isReal_maximumf (aggregate_real ha hs hb) zeroRows_real) hw

/-- The matrix the softmax is taken of holds real numbers only. -/
theorem logits_real {x : FVec Ideal S10000x128 .f32} {adj : FVec Ideal S10000x10000 .f32} {w1 : FVec Ideal S128x16 .f32}
    {b1 : FVec Ideal S16 .f32} {w2 : FVec Ideal S16x16 .f32} {b2 : FVec Ideal S16 .f32} {w3 : FVec Ideal S16x16 .f32}
    {b3 : FVec Ideal S16 .f32} (hx : IsReal x) (ha : IsReal adj) (hw1 : IsReal w1) (hb1 : IsReal b1) (hw2 : IsReal w2)
    (hb2 : IsReal b2) (hw3 : IsReal w3) (hb3 : IsReal b3) :
    IsReal (aggregate adj (hidden adj (hidden adj (project x w1) b1 w2) b2 w3) b3) :=
  aggregate_real ha (hidden_real ha (hidden_real ha (project_real hx hw1) hb1 hw2) hb2 hw3) hb3

/-- The reference's composed result term is the network of its arguments. -/
theorem ref_result (m : (ℓ : Loc nD τ sig) → Buf (Elt Ideal) ℓ) (c : Dev nD) :
    Cert.ReferenceIdeal.ValueP.res_main_v17 (F := Ideal) m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v17 gcn logSoftmax rowMax aggregate hidden project biasRows zeroRows
  rfl

end Cert.Spec

end
-- ==== Proof.Chain.lean ====
/-
  The kernel program's result array, followed through @main, is the network of the arguments.

  Between the regions every buffer is carried unchanged except the ones a region's write-backs or a host operation write.
  So the adjacency every layer reads is the argument; the support matrix a layer reads is what the region before it left
  (the projection, then the first and the second hidden layer); the bias block a layer reads is the host's broadcast of
  the bias argument over eight rows, whose row 0 is the bias vector; and the weights are the arguments. Substituting one
  region's result into the next gives the result array as `gcn` of the eight arguments, as soon as the arguments hold real
  numbers only.
-/
import proofs.«144065_g45140106281004_cont_8to1c4_826_3_alg».proof.Proof.Region0
import proofs.«144065_g45140106281004_cont_8to1c4_826_3_alg».proof.Proof.Region1
import proofs.«144065_g45140106281004_cont_8to1c4_826_3_alg».proof.Proof.Region2
import proofs.«144065_g45140106281004_cont_8to1c4_826_3_alg».proof.Proof.Region3
import proofs.«144065_g45140106281004_cont_8to1c4_826_3_alg».proof.Proof.SpecReal
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Cert.Lib
open Idealize.ShloMosaic.Pipeline (Dat)

variable (m : (ℓ : Loc nD τ sig) → Buf (Elt Ideal) ℓ) (ρ : Dev nD → PrngReg)

/-- The host operations between the projection and the first layer write only the three bias blocks and the rows they are
    made from: any other buffer is carried. -/
local macro "host_carries" : term => `(
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide))))

/-! ## Before the first layer -/

theorem W2_arg1 (c : Dev nD) : W2 m ρ c (Proc.devRef .tc main_arg1) = m ((c : Thread nD τ).loc main_arg1) :=
  (host_carries : W2 m ρ c (Proc.devRef .tc main_arg1) = W1 m ρ c (Proc.devRef .tc main_arg1)).trans
    (W1_of_ne m ρ c main_arg1 (by decide))

theorem W2_arg4 (c : Dev nD) : W2 m ρ c (Proc.devRef .tc main_arg4) = m ((c : Thread nD τ).loc main_arg4) :=
  (host_carries : W2 m ρ c (Proc.devRef .tc main_arg4) = W1 m ρ c (Proc.devRef .tc main_arg4)).trans
    (W1_of_ne m ρ c main_arg4 (by decide))

theorem W2_arg6 (c : Dev nD) : W2 m ρ c (Proc.devRef .tc main_arg6) = m ((c : Thread nD τ).loc main_arg6) :=
  (host_carries : W2 m ρ c (Proc.devRef .tc main_arg6) = W1 m ρ c (Proc.devRef .tc main_arg6)).trans
    (W1_of_ne m ρ c main_arg6 (by decide))

/-- The projection's result reaches the first layer. -/
theorem W2_v0 (c : Dev nD) : W2 m ρ c (Proc.devRef .tc main_v0)
    = Cert.Spec.project (m ((c : Thread nD τ).loc main_arg0)) (m ((c : Thread nD τ).loc main_arg2)) :=
  (host_carries : W2 m ρ c (Proc.devRef .tc main_v0) = W1 m ρ c (Proc.devRef .tc main_v0)).trans
    ((W1_arr m ρ c 2).trans (Region0.final (V0 m ρ) c))

/-- The three bias blocks the host builds: row 0 of each is its bias vector. -/
theorem W2_bias1 (c : Dev nD) (q : Fin 16) : (W2 m ρ c (Proc.devRef .tc main_v2) : FVec Ideal S8x16 .f32) (ix2 (0 : Fin 8) q)
    = (m ((c : Thread nD τ).loc main_arg3) : FVec Ideal S16 .f32) (ix1 q) := by
  have e : (W2 m ρ c (Proc.devRef .tc main_v2) : FVec Ideal S8x16 .f32)
      = broadcastInDim S8x16 ![0, 1] bcast_S1x16_S8x16_0_1 (broadcastInDim S1x16 ![1] bcast_S16_S1x16_1
          (W1 m ρ c (Proc.devRef .tc main_arg3) : FVec Ideal S16 .f32)) := by
    show StableHlo.after hostOps1 (W1 m ρ c) (Proc.devRef .tc main_v2) = _
    after_results
  rw [e, bias_rows_apply (N := 8) (M := 16)]
  exact congrFun (W1_of_ne m ρ c main_arg3 (by decide)) (ix1 q)

theorem W2_bias2 (c : Dev nD) (q : Fin 16) : (W2 m ρ c (Proc.devRef .tc main_v4) : FVec Ideal S8x16 .f32) (ix2 (0 : Fin 8) q)
    = (m ((c : Thread nD τ).loc main_arg5) : FVec Ideal S16 .f32) (ix1 q) := by
  have e : (W2 m ρ c (Proc.devRef .tc main_v4) : FVec Ideal S8x16 .f32)
      = broadcastInDim S8x16 ![0, 1] bcast_S1x16_S8x16_0_1 (broadcastInDim S1x16 ![1] bcast_S16_S1x16_1
          (W1 m ρ c (Proc.devRef .tc main_arg5) : FVec Ideal S16 .f32)) := by
    show StableHlo.after hostOps1 (W1 m ρ c) (Proc.devRef .tc main_v4) = _
    after_results
  rw [e, bias_rows_apply (N := 8) (M := 16)]
  exact congrFun (W1_of_ne m ρ c main_arg5 (by decide)) (ix1 q)

theorem W2_bias3 (c : Dev nD) (q : Fin 16) : (W2 m ρ c (Proc.devRef .tc main_v6) : FVec Ideal S8x16 .f32) (ix2 (0 : Fin 8) q)
    = (m ((c : Thread nD τ).loc main_arg7) : FVec Ideal S16 .f32) (ix1 q) := by
  have e : (W2 m ρ c (Proc.devRef .tc main_v6) : FVec Ideal S8x16 .f32)
      = broadcastInDim S8x16 ![0, 1] bcast_S1x16_S8x16_0_1 (broadcastInDim S1x16 ![1] bcast_S16_S1x16_1
          (W1 m ρ c (Proc.devRef .tc main_arg7) : FVec Ideal S16 .f32)) := by
    show StableHlo.after hostOps1 (W1 m ρ c) (Proc.devRef .tc main_v6) = _
    after_results
  rw [e, bias_rows_apply (N := 8) (M := 16)]
  exact congrFun (W1_of_ne m ρ c main_arg7 (by decide)) (ix1 q)

/-! ## The first hidden layer's result -/

/-- The support matrix after the first layer. -/
abbrev s2 (c : Dev nD) : FVec Ideal Cert.ReferenceIdeal.S10000x16 .f32 :=
  Cert.Spec.hidden (m ((c : Thread nD τ).loc main_arg1))
    (Cert.Spec.project (m ((c : Thread nD τ).loc main_arg0)) (m ((c : Thread nD τ).loc main_arg2)))
    (m ((c : Thread nD τ).loc main_arg3)) (m ((c : Thread nD τ).loc main_arg4))

theorem W3_v7 (c : Dev nD) : W3 m ρ c (Proc.devRef .tc main_v7) = s2 m c := by
  refine (W3_arr m ρ c 4).trans ((Region1.final (V2 m ρ) c (m ((c : Thread nD τ).loc main_arg3)) (W2_bias1 m ρ c)).trans ?_)
  show Cert.Spec.hidden (W2 m ρ c (Proc.devRef .tc main_arg1)) (W2 m ρ c (Proc.devRef .tc main_v0)) _ (W2 m ρ c (Proc.devRef .tc main_arg4)) = _
  rw [W2_arg1, W2_v0, W2_arg4]

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)

theorem W3_arg6 (c : Dev nD) : W3 m ρ c (Proc.devRef .tc main_arg6) = m ((c : Thread nD τ).loc main_arg6) :=
  (W3_of_ne m ρ c main_arg6 (by decide)).trans (W2_arg6 m ρ c)

theorem W3_bias2 (c : Dev nD) (q : Fin 16) : (W3 m ρ c (Proc.devRef .tc main_v4) : FVec Ideal S8x16 .f32) (ix2 (0 : Fin 8) q)
    = (m ((c : Thread nD τ).loc main_arg5) : FVec Ideal S16 .f32) (ix1 q) :=
  (congrFun (W3_of_ne m ρ c main_v4 (by decide)) _).trans (W2_bias2 m ρ c q)

theorem W3_bias3 (c : Dev nD) (q : Fin 16) : (W3 m ρ c (Proc.devRef .tc main_v6) : FVec Ideal S8x16 .f32) (ix2 (0 : Fin 8) q)
    = (m ((c : Thread nD τ).loc main_arg7) : FVec Ideal S16 .f32) (ix1 q) :=
  (congrFun (W3_of_ne m ρ c main_v6 (by decide)) _).trans (W2_bias3 m ρ c q)

/-! ## The second hidden layer's result -/

/-- The support matrix after the second layer. -/
abbrev s3 (c : Dev nD) : FVec Ideal Cert.ReferenceIdeal.S10000x16 .f32 :=
  Cert.Spec.hidden (m ((c : Thread nD τ).loc main_arg1)) (s2 m c) (m ((c : Thread nD τ).loc main_arg5)) (m ((c : Thread nD τ).loc main_arg6))

theorem W4_v8 (c : Dev nD) : W4 m ρ c (Proc.devRef .tc main_v8) = s3 m c := by
  refine (W4_arr m ρ c 4).trans ((Region2.final (V3 m ρ) c (m ((c : Thread nD τ).loc main_arg5)) (W3_bias2 m ρ c)).trans ?_)
  show Cert.Spec.hidden (W3 m ρ c (Proc.devRef .tc main_arg1)) (W3 m ρ c (Proc.devRef .tc main_v7)) _ (W3 m ρ c (Proc.devRef .tc main_arg6)) = _
  rw [W3_arg1, W3_v7, W3_arg6]

theorem W4_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_arg1 m ρ c)

theorem W4_bias3 (c : Dev nD) (q : Fin 16) : (W4 m ρ c (Proc.devRef .tc main_v6) : FVec Ideal S8x16 .f32) (ix2 (0 : Fin 8) q)
    = (m ((c : Thread nD τ).loc main_arg7) : FVec Ideal S16 .f32) (ix1 q) :=
  (congrFun (W4_of_ne m ρ c main_v6 (by decide)) _).trans (W3_bias3 m ρ c q)

/-! ## The result -/

/-- THE RESULT ARRAY the last region leaves is the network of the eight arguments, when they hold real numbers only. -/
theorem result (c : Dev nD)
    (h0 : IsReal (m ((c : Thread nD τ).loc main_arg0))) (h1 : IsReal (m ((c : Thread nD τ).loc main_arg1)))
    (h2 : IsReal (m ((c : Thread nD τ).loc main_arg2))) (h3 : IsReal (m ((c : Thread nD τ).loc main_arg3)))
    (h4 : IsReal (m ((c : Thread nD τ).loc main_arg4))) (h5 : IsReal (m ((c : Thread nD τ).loc main_arg5)))
    (h6 : IsReal (m ((c : Thread nD τ).loc main_arg6))) (h7 : IsReal (m ((c : Thread nD τ).loc main_arg7))) :
    (dat3 (V4 m ρ) c).arrAt 3 cfg3.N
      = Cert.Spec.gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have hreal : IsReal (Cert.Spec.aggregate (V4 m ρ c main_arg1) (V4 m ρ c main_v8) (m ((c : Thread nD τ).loc main_arg7))) := by
    show IsReal (Cert.Spec.aggregate (W4 m ρ c (Proc.devRef .tc main_arg1)) (W4 m ρ c (Proc.devRef .tc main_v8)) _)
    rw [W4_arg1, W4_v8]
    exact Cert.Spec.logits_real h0 h1 h2 h3 h4 h5 h6 h7
  refine (Region3.final (V4 m ρ) c (m ((c : Thread nD τ).loc main_arg7)) (W4_bias3 m ρ c) hreal).trans ?_
  show Cert.Spec.logSoftmax (Cert.Spec.aggregate (W4 m ρ c (Proc.devRef .tc main_arg1)) (W4 m ρ c (Proc.devRef .tc main_v8)) _) = _
  rw [W4_arg1, W4_v8]
  rfl

end Cert.KernelIdeal.Chain

end
-- ==== Proof.Finite.lean ====
/-
  Under the precondition every entry of every argument is a real number.
-/
import proofs.«144065_g45140106281004_cont_8to1c4_826_3_alg».proof.Pre_finite_inputs
import proofs.«144065_g45140106281004_cont_8to1c4_826_3_alg».proof.Proof.LibRealRows
import Idealize.ShloMosaic.Lib.ReduceAll

noncomputable section

namespace Cert.Finite

open Idealize.ShloMosaic Idealize.ShloMosaic.ValueIdx Cert.Lib Cert.Pre_finite_inputs

variable [Cert.Pre_finite_inputs.Facts]

/-- The result shape of a reduction over all axes has one index. -/
instance : Subsingleton S_.Idx := ⟨fun a b => funext fun d => d.elim0⟩

/-- An extended real whose absolute value compares below the f32 pattern of `+∞` is a real number. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array of any shape: if the conjunction over all its entries of `|entry| < +∞` is one, every entry is a real
    number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu ix0
      = 1#1) : IsReal x := by
  intro i
  have hi := Host.reduce_andi_all _ _ hr hu ix0 e i
  rw [cmpf_apply, broadcastInDim_apply ![] hb _ i ix0 (fun a => a.elim0), constant_apply] at hi
  exact real_of_abs_lt_inf (x i) hi

/-- A conjunction of two scalar bits that is one: both are one. -/
theorem andi_ix0 {a b : IVec S_ 1} (h : andi a b ix0 = 1#1) : a ix0 = 1#1 ∧ b ix0 = 1#1 :=
  IntOp.andi_eq_one.1 h

/-- The precondition's predicate, all ones, says of each of the eight arrays that every entry's absolute value is below
    `+∞`: every entry is a real number. -/
theorem inputs_real (x0 : FVec Ideal S10000x128 .f32) (x1 : FVec Ideal S10000x10000 .f32) (x2 : FVec Ideal S128x16 .f32)
    (x3 : FVec Ideal S16 .f32) (x4 : FVec Ideal S16x16 .f32) (x5 : FVec Ideal S16 .f32) (x6 : FVec Ideal S16x16 .f32)
    (x7 : FVec Ideal S16 .f32) (h : fn (F := Ideal) x0 x1 x2 x3 x4 x5 x6 x7 = fun _ => 1#1) :
    IsReal x0 ∧ IsReal x1 ∧ IsReal x2 ∧ IsReal x3 ∧ IsReal x4 ∧ IsReal x5 ∧ IsReal x6 ∧ IsReal x7 := by
  have h0 := congrFun h ix0
  dsimp only [fn, fn_part1, fn_part2] at h0
  obtain ⟨h0, e7⟩ := andi_ix0 h0
  obtain ⟨h0, e6⟩ := andi_ix0 h0
  obtain ⟨h0, e5⟩ := andi_ix0 h0
  obtain ⟨h0, e4⟩ := andi_ix0 h0
  obtain ⟨h0, e3⟩ := andi_ix0 h0
  obtain ⟨h0, e2⟩ := andi_ix0 h0
  obtain ⟨e0, e1⟩ := andi_ix0 h0
  exact ⟨isReal_of_all x0 _ _ _ _ e0, isReal_of_all x1 _ _ _ _ e1, isReal_of_all x2 _ _ _ _ e2,
    isReal_of_all x3 _ _ _ _ e3, isReal_of_all x4 _ _ _ _ e4, isReal_of_all x5 _ _ _ _ e5,
    isReal_of_all x6 _ _ _ _ e6, isReal_of_all x7 _ _ _ _ e7⟩

end Cert.Finite

end
-- ==== Proof.lean ====
/-
  A three-layer graph convolution over a dense adjacency of 10000 nodes, tiled over the adjacency's rows, against the
  plain program.

  The kernel program projects the features in one region, then runs each layer as a region over 25 tiles of 400 rows of
  the adjacency: a tile's rows times the whole support matrix, plus the bias row, then the clamp at zero and the next
  weights (the two hidden layers) or the row-wise logarithmic softmax (the last layer). Each region's write-backs tile its
  result, and on a tile every entry is the corresponding entry of the whole layer, since at the ideal values a matrix
  unit's product into zeros and the host's `dot_general` are the same finite sum. The last layer's kernel text subtracts
  `log Σ exp (y - max y) + max y` where the reference subtracts `max y` and then `log Σ exp (y - max y)`: equal as soon
  as `y` and `max y` are real numbers, which the finiteness of the inputs gives through every sum of products. So both
  programs end with the result array at one function, `Cert.Spec.gcn`, of the eight arguments.
-/
import proofs.«144065_g45140106281004_cont_8to1c4_826_3_alg».proof.Defs
import proofs.«144065_g45140106281004_cont_8to1c4_826_3_alg».proof.Proof.Gen.Kernel
import proofs.«144065_g45140106281004_cont_8to1c4_826_3_alg».proof.Proof.Gen.Kernel.Frame
import proofs.«144065_g45140106281004_cont_8to1c4_826_3_alg».proof.Proof.Gen.KernelIdeal
import proofs.«144065_g45140106281004_cont_8to1c4_826_3_alg».proof.Proof.Gen.KernelIdeal.Frame
import proofs.«144065_g45140106281004_cont_8to1c4_826_3_alg».proof.Proof.Gen.ReferenceIdeal
import proofs.«144065_g45140106281004_cont_8to1c4_826_3_alg».proof.Proof.Gen.Pre_finite_inputs
import proofs.«144065_g45140106281004_cont_8to1c4_826_3_alg».proof.Proof.RefRun
import proofs.«144065_g45140106281004_cont_8to1c4_826_3_alg».proof.Proof.RunKernel
import proofs.«144065_g45140106281004_cont_8to1c4_826_3_alg».proof.Proof.Chain
import proofs.«144065_g45140106281004_cont_8to1c4_826_3_alg».proof.Proof.Finite
import proofs.«144065_g45140106281004_cont_8to1c4_826_3_alg».proof.Proof.SpecReal
import Idealize.ShloMosaic.Adequacy
import Idealize.ShloMosaic.Init

noncomputable section

namespace Cert.Proof

open Idealize.ShloMosaic Idealize.ShloMosaic.TcCoe Idealize.SL.Sem

/-- The three programs run, and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the result at the network `gcn` of the arguments: the kernel's by following its
    regions' write-backs through @main, the reference's by reading its composed term. -/
theorem algebraic : Cert.algebraic_KernelIdeal_ReferenceIdeal := by
  intro m ρ m' ρ' hpre hagree
  have hR := fun c => Cert.Finite.inputs_real _ _ _ _ _ _ _ _ (hpre c)
  refine ⟨fun c => Cert.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans
        (Cert.KernelIdeal.Chain.result m ρ c (hR c).1 (hR c).2.1 (hR c).2.2.1 (hR c).2.2.2.1 (hR c).2.2.2.2.1
          (hR c).2.2.2.2.2.1 (hR c).2.2.2.2.2.2.1 (hR c).2.2.2.2.2.2.2), (h c).2⟩)
      (Cert.KernelIdeal.GenP.run_result m ρ)
  · refine (θ_run Cert.ReferenceIdeal.defs _ _).mono (fun _ h c => ⟨(h c).1.trans ?_, (h c).2⟩)
      (Cert.ReferenceIdeal.ValueP.run (F := Ideal) m' ρ')
    rw [Cert.Spec.ref_result, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
